-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000 : Shape := ⟨1, ![1250000]⟩
abbrev S64x128 : Shape := ⟨2, ![64, 128]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x64 .f32) (main_arg1 : IVec S1250000 32) (main_arg2 : IVec S1250000 32) (main_arg3 : FVec F S64x128 .f32) (main_arg4 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x64 : Shape := ⟨2, ![100000, 64]⟩
abbrev S1250000 : Shape := ⟨1, ![1250000]⟩
abbrev S64x128 : Shape := ⟨2, ![64, 128]⟩
abbrev S128 : Shape := ⟨1, ![128]⟩
abbrev S_ : Shape := ⟨0, ![]⟩
abbrev S1250000x1 : Shape := ⟨2, ![1250000, 1]⟩
abbrev S1250000x64 : Shape := ⟨2, ![1250000, 64]⟩
abbrev S100000x128 : Shape := ⟨2, ![100000, 128]⟩
abbrev S5000x64 : Shape := ⟨2, ![5000, 64]⟩
abbrev S5000x128 : Shape := ⟨2, ![5000, 128]⟩
abbrev S1x128 : Shape := ⟨2, ![1, 128]⟩

abbrev nBuf : Space → Nat
  | .hbm => 19
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S1250000, .i32⟩
  | .hbm, ⟨2, _⟩ => ⟨S1250000, .i32⟩
  | .hbm, ⟨3, _⟩ => ⟨S64x128, .f32⟩
  | .hbm, ⟨4, _⟩ => ⟨S128, .f32⟩
  | .hbm, ⟨5, _⟩ => ⟨S_, .i32⟩
  | .hbm, ⟨6, _⟩ => ⟨S1250000, .i32⟩
  | .hbm, ⟨7, _⟩ => ⟨S1250000, .i1⟩
  | .hbm, ⟨8, _⟩ => ⟨S_, .i32⟩
  | .hbm, ⟨9, _⟩ => ⟨S1250000, .i32⟩
  | .hbm, ⟨10, _⟩ => ⟨S1250000, .i32⟩
  | .hbm, ⟨11, _⟩ => ⟨S1250000, .i32⟩
  | .hbm, ⟨12, _⟩ => ⟨S1250000x1, .i32⟩
  | .hbm, ⟨13, _⟩ => ⟨S1250000x64, .f32⟩
  | .hbm, ⟨14, _⟩ => ⟨S_, .f32⟩
  | .hbm, ⟨15, _⟩ => ⟨S100000x64, .f32⟩
  | .hbm, ⟨16, _⟩ => ⟨S1250000x1, .i32⟩
  | .hbm, ⟨17, _⟩ => ⟨S100000x64, .f32⟩
  | .hbm, ⟨18, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S1250000 : Shape := ⟨1, ![1250000]⟩
abbrev S64x128 : Shape := ⟨2, ![64, 128]⟩
abbrev S128 : Shape := ⟨1, ![128]⟩
abbrev S_ : Shape := ⟨0, ![]⟩
abbrev S1250000x1 : Shape := ⟨2, ![1250000, 1]⟩
abbrev S1250000x64 : Shape := ⟨2, ![1250000, 64]⟩
abbrev S100000x128 : Shape := ⟨2, ![100000, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1250000, .i32⟩
  | .hbm, ⟨2, _⟩ => ⟨S1250000, .i32⟩
  | .hbm, ⟨3, _⟩ => ⟨S64x128, .f32⟩
  | .hbm, ⟨4, _⟩ => ⟨S128, .f32⟩
  | .hbm, ⟨5, _⟩ => ⟨S_, .i32⟩
  | .hbm, ⟨6, _⟩ => ⟨S1250000, .i32⟩
  | .hbm, ⟨7, _⟩ => ⟨S1250000, .i1⟩
  | .hbm, ⟨8, _⟩ => ⟨S_, .i32⟩
  | .hbm, ⟨9, _⟩ => ⟨S1250000, .i32⟩
  | .hbm, ⟨10, _⟩ => ⟨S1250000, .i32⟩
  | .hbm, ⟨11, _⟩ => ⟨S1250000, .i32⟩
  | .hbm, ⟨12, _⟩ => ⟨S1250000x1, .i32⟩
  | .hbm, ⟨13, _⟩ => ⟨S1250000x64, .f32⟩
  | .hbm, ⟨14, _⟩ => ⟨S_, .f32⟩
  | .hbm, ⟨15, _⟩ => ⟨S100000x64, .f32⟩
  | .hbm, ⟨16, _⟩ => ⟨S1250000x1, .i32⟩
  | .hbm, ⟨17, _⟩ => ⟨S100000x64, .f32⟩
  | .hbm, ⟨18, _⟩ => ⟨S_, .f32⟩
  | .hbm, ⟨19, _⟩ => ⟨S100000x64, .f32⟩
  | .hbm, ⟨20, _⟩ => ⟨S100000x64, .f32⟩
  | .hbm, ⟨21, _⟩ => ⟨S100000x64, .f32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x128_S100000x128_1_0_0_1_n_n_wf : DotDims.WF S100000x64 S64x128 S100000x128 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.Layer.lean ====
/-
  One graph-isomorphism layer, as a function of its arrays over the extended reals.

  For node features `x` (100000 nodes, 64 features), the neighbour sums `agg` (same shape), a weight matrix `W`
  (64 by 128) and a bias `b` (128), the layer's output at node `r` and output feature `j` is

      max ( (Σ_k (1 · x[r,k] + agg[r,k]) · W[k,j]) + b[j] , 0 ).

  The factor `1` is `1 + eps` with `eps = 0`, kept as the float word both programs print; the `0` of the rectifier
  is kept as its word as well. An entry depends on ONE row of `x` and `agg`, one column of `W` and one entry of
  `b`: `entry` is that function of a row, a row, a column and a number, and `layer` reads it at every index.
  Because `entry` only sees a row, the same function describes a block of rows and the whole array.
-/
import Idealize.ShloMosaic.PureOps.Ideal
import Idealize.ShloMosaic.PureOps.Ideal.Laws
import Idealize.ShloMosaic.Lib.ValueIdx

noncomputable section

namespace Cert.Gin

open Idealize.ShloMosaic Idealize.ShloMosaic.ValueIdx

/-- One output entry from a row of features, the same row of neighbour sums, a column of weights and a bias:
    the rectified affine form `max ((Σ_k (1·x_k + a_k)·w_k) + β) 0`. -/
def entry (xrow aggrow wcol : Fin 64 → EReal) (bias : EReal) : EReal :=
  max ((∑ k : Fin 64, (Ideal.ofBits .f32 0x3F800000#32 * xrow k + aggrow k) * wcol k) + bias) (Ideal.ofBits .f32 0x00000000#32)

/-- The layer over `n` rows read at row `r`, output feature `j`. -/
def rowsLayer {n : Nat} (x agg : (⟨2, ![n, 64]⟩ : Shape).Idx → EReal) (W : (⟨2, ![64, 128]⟩ : Shape).Idx → EReal)
    (b : (⟨1, ![128]⟩ : Shape).Idx → EReal) (r : Fin n) (j : Fin 128) : EReal :=
  entry (fun k => x (ix2 r k)) (fun k => agg (ix2 r k)) (fun k => W (ix2 k j)) (b (ix1 j))

/-- The whole layer: every node, every output feature. -/
def layer (x agg : (⟨2, ![100000, 64]⟩ : Shape).Idx → EReal) (W : (⟨2, ![64, 128]⟩ : Shape).Idx → EReal)
    (b : (⟨1, ![128]⟩ : Shape).Idx → EReal) : (⟨2, ![100000, 128]⟩ : Shape).Idx → EReal :=
  fun i => rowsLayer x agg W b (i 0) (i 1)

theorem layer_apply (x agg : (⟨2, ![100000, 64]⟩ : Shape).Idx → EReal) (W : (⟨2, ![64, 128]⟩ : Shape).Idx → EReal)
    (b : (⟨1, ![128]⟩ : Shape).Idx → EReal) (r : Fin 100000) (j : Fin 128) :
    layer x agg W b (ix2 r j) = entry (fun k => x (ix2 r k)) (fun k => agg (ix2 r k)) (fun k => W (ix2 k j)) (b (ix1 j)) := rfl

end Cert.Gin

end
-- ==== Proof.Body.lean ====
/-
  What the kernel body computes for one block of 5000 rows, entry by entry, at the extended reals.

  The body loads a block of `x`, the matching block of the neighbour sums, the whole `W` and the whole `b`; it forms
  `1·x + agg`, narrows both matrix operands to bf16 (the identity on the extended reals), multiplies them on the matrix
  unit into a zero accumulator (so the product is the plain sum over the 64 contracted positions), adds the bias row
  to every row and takes the maximum with zero. Read at row `p` and column `q` of the block that is `Cert.Gin.entry`
  of row `p` of the two blocks, column `q` of `W` and `b[q]`.
-/
import proofs.«169084_j40346922779435_1_alg».proof.Proof.Gen.KernelIdeal.Skeleton
import proofs.«169084_j40346922779435_1_alg».proof.Proof.Layer
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The matrix product of a block at an index -/

/-- The left operand is read at the output's row … -/
theorem lhs_axis0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- … and at the contracted position; -/
theorem lhs_axis1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
/-- the right operand at the contracted position … -/
theorem rhs_axis0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
/-- … and at the output's column. -/
theorem rhs_axis1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The block's matrix product into a zero accumulator, at row `p` and column `q`: the sum over the 64 contracted
    positions of the products. -/
theorem matmul_zero_apply {φ₁ φ₂ : FTy} (l : FVec Ideal S5000x64 φ₁) (r : FVec Ideal S64x128 φ₂) (p : Fin 5000) (q : Fin 128) :
    matmul dot_S5000x64_S64x128_S5000x128_1_0_0_1_n_n none l r (constant S5000x128 .f32 0x00000000#32) (ix2 p q)
      = ∑ k : Fin 64, l (ix2 p k) * r (ix2 k q) := by
  show FloatOps.matmul dot_S5000x64_S64x128_S5000x128_1_0_0_1_n_n none l r (constant S5000x128 .f32 0x00000000#32) (ix2 p q) = _
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 p q) ((ValueIdx.contrEquiv1 dot_S5000x64_S64x128_S5000x128_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S5000x64_S64x128_S5000x128_1_0_0_1_n_n.rhsIdx (ix2 p q) ((ValueIdx.contrEquiv1 dot_S5000x64_S64x128_S5000x128_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-! ## The bias row under every row -/

/-- The bias, given a unit leading axis and repeated down the rows, read at row `p`, column `q`, is `b[q]`. -/
theorem bias_apply (bb : Vec Ideal S128 .f32) (p : Fin 5000) (q : Fin 128) :
    broadcastTo S5000x128 (shapeCast S1x128 bb shapeCasts_S128_S1x128) broadcasts_S1x128_S5000x128 (ix2 p q) = bb (ix1 q) := by
  rw [broadcastTo_apply (shapeCast S1x128 bb shapeCasts_S128_S1x128) broadcasts_S1x128_S5000x128 (ix2 p q) (ix2 (0 : Fin 1) q) (fun a => by
    match a with
    | ⟨0, _⟩ => rfl
    | ⟨1, _⟩ => rfl)]
  rw [shapeCast_addUnit_apply]
  refine congrArg bb (funext fun a => ?_)
  match a with
  | ⟨0, _⟩ => rfl

/-! ## The payload at an index -/

/-- The stored block at row `p`, column `q`. -/
theorem payload_apply (x0 x1 : Vec Ideal S5000x64 .f32) (w : Vec Ideal S64x128 .f32) (bb : Vec Ideal S128 .f32) (p : Fin 5000) (q : Fin 128) :
    k0_pay1 (F := Ideal) x0 x1 w bb (ix2 p q)
      = Cert.Gin.entry (fun k => x0 (ix2 p k)) (fun k => x1 (ix2 p k)) (fun k => w (ix2 k q)) (bb (ix1 q)) := by
  unfold k0_pay1 Cert.Gin.entry
  rw [maximumf_apply, addf_apply, matmul_zero_apply, bias_apply, shapeCast_self]
  rfl

end Cert.KernelIdeal.Body

end
-- ==== Proof.Blocks.lean ====
/-
  From the blocks the grid writes to the whole output array, at the extended reals.

  The grid has 20 points; point `t` reads rows `5000·t … 5000·t + 4999` of `x` and of the neighbour sums, the whole
  `W` and the whole `b`, and writes rows `5000·t … 5000·t + 4999` of the output. Since an output entry depends only
  on its own row of the two row-blocked inputs, what point `t` writes is block `t` of `Cert.Gin.layer` of the whole
  arrays (`flushed_eq`); the 20 blocks cover all 100000 rows (row `r` lies in block `r / 5000`), so the output array
  ends as `layer` of the arrays the call was given (`final`). The second operand of the call is the array the host
  operations before it compute, the neighbour sums of the arguments (`agg_eq`).
-/
import proofs.«169084_j40346922779435_1_alg».proof.Proof.Gen.KernelIdeal.Value
import proofs.«169084_j40346922779435_1_alg».proof.Proof.Body
import proofs.«169084_j40346922779435_1_alg».proof.Proof.Layer
import Idealize.ShloMosaic.Lib.ValueIdx
import Idealize.ShloMosaic.Lib.Pipeline.Value
import Idealize.ShloMosaic.Lib.StableHlo.Run
import Idealize.ShloMosaic.Lib.Tactic

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The index maps over the grid: the row-blocked windows (both inputs of 64 columns and the output) are at block
    `(t, 0)`, the weights and the bias at their one block. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-! ## A block of an array as rows of the array

  Stated for ANY array contents: the facts are about which rows a block holds, not about what the arrays hold. -/

/-- Row `p` of point `t`'s block of the first operand is row `5000·t + p` of that operand. -/
theorem xblock_apply (X : Vec Ideal S100000x64 .f32) (t : Fin cfg0.N) (p : Fin 5000) (k : Fin 64) (r : Fin 100000) (hr : r.val = t.val * 5000 + p.val) :
    (((cfg0.win 0).blk t).view.read (Elt Ideal) X : Vec Ideal S5000x64 .f32) (ix2 p k) = X (ix2 r k) := by
  obtain ⟨e0, e1, -⟩ := index_maps t
  rw [View.read_apply]
  show X _ = X _
  refine congrArg X (funext fun a => Fin.ext ?_)
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- Row `p` of point `t`'s block of the second operand (the neighbour sums) is row `5000·t + p` of that operand. -/
theorem aggblock_apply (A : Vec Ideal S100000x64 .f32) (t : Fin cfg0.N) (p : Fin 5000) (k : Fin 64) (r : Fin 100000) (hr : r.val = t.val * 5000 + p.val) :
    (((cfg0.win 1).blk t).view.read (Elt Ideal) A : Vec Ideal S5000x64 .f32) (ix2 p k) = A (ix2 r k) := by
  obtain ⟨-, -, e0, e1, -⟩ := index_maps t
  rw [View.read_apply]
  show A _ = A _
  refine congrArg A (funext fun a => Fin.ext ?_)
  match a with
  | ⟨0, _⟩ => show win0_1.index t (0 : Fin 2) * 5000 + 1 * p.val = r.val; rw [e0, hr]; omega
  | ⟨1, _⟩ => show win0_1.index t (1 : Fin 2) * 64 + 1 * k.val = k.val; rw [e1]; omega

/-- Every point's block of the weights is the whole matrix. -/
theorem wblock_apply (W : Vec Ideal S64x128 .f32) (t : Fin cfg0.N) (k : Fin 64) (q : Fin 128) :
    (((cfg0.win 2).blk t).view.read (Elt Ideal) W : Vec Ideal S64x128 .f32) (ix2 k q) = W (ix2 k q) := by
  obtain ⟨-, -, -, -, e0, e1, -⟩ := index_maps t
  rw [View.read_apply]
  show W _ = W _
  refine congrArg W (funext fun a => Fin.ext ?_)
  match a with
  | ⟨0, _⟩ => show win0_2.index t (0 : Fin 2) * 64 + 1 * k.val = k.val; rw [e0]; omega
  | ⟨1, _⟩ => show win0_2.index t (1 : Fin 2) * 128 + 1 * q.val = q.val; rw [e1]; omega

/-- Every point's block of the bias is the whole vector. -/
theorem bblock_apply (B : Vec Ideal S128 .f32) (t : Fin cfg0.N) (q : Fin 128) :
    (((cfg0.win 3).blk t).view.read (Elt Ideal) B : Vec Ideal S128 .f32) (ix1 q) = B (ix1 q) := by
  obtain ⟨-, -, -, -, -, -, e0, -⟩ := index_maps t
  rw [View.read_apply]
  show B _ = B _
  refine congrArg B (funext fun a => Fin.ext ?_)
  match a with
  | ⟨0, _⟩ => show win0_3.index t (0 : Fin 1) * 128 + 1 * q.val = q.val; rw [e0]; omega

/-- Row `p`, column `q` of point `t`'s output block is row `5000·t + p`, column `q` of the output array. -/
theorem outblock_emb (t : Fin cfg0.N) (p : Fin 5000) (q : Fin 128) (r : Fin 100000) (hr : r.val = t.val * 5000 + p.val) :
    (((cfg0.win 4).blk t).view.emb (ix2 p q) : S100000x128.Idx) = ix2 r q := by
  obtain ⟨-, -, -, -, -, -, -, e0, e1⟩ := index_maps t
  refine funext fun a => Fin.ext ?_
  match a with
  | ⟨0, _⟩ => show win0_4.index t (0 : Fin 2) * 5000 + 1 * p.val = r.val; rw [e0, hr]; omega
  | ⟨1, _⟩ => show win0_4.index t (1 : Fin 2) * 128 + 1 * q.val = q.val; rw [e1]; omega

/-! ## What a point writes back, and the array after the run -/

/-- The body's result on point `t`'s blocks of any four arrays is block `t` of the layer of those arrays. -/
theorem block_eq (X A : Vec Ideal S100000x64 .f32) (W : Vec Ideal S64x128 .f32) (B : Vec Ideal S128 .f32) (t : Fin cfg0.N) :
    (cfg0.win 4).cut (grid0.coords t) (out0_4 (F := Ideal) (((cfg0.win 0).blk t).view.read (Elt Ideal) X) (((cfg0.win 1).blk t).view.read (Elt Ideal) A)
        (((cfg0.win 2).blk t).view.read (Elt Ideal) W) (((cfg0.win 3).blk t).view.read (Elt Ideal) B))
      = ((cfg0.win 4).blk t).view.read (Elt Ideal) (Cert.Gin.layer X A W B) := by
  unfold out0_4
  rw [View.canon_unit_zero zero2]
  simp only [View.ld_unit_zero (S := S5000x64) zero2, View.ld_unit_zero (S := S64x128) zero2, View.ld_unit_zero (S := S128) zero1]
  funext j
  obtain ⟨p, q, rfl⟩ : ∃ (p : Fin 5000) (q : Fin 128), j = ix2 p q := ⟨j 0, j 1, eq_ix2 j⟩
  have hN : cfg0.N = 20 := N_0
  have hlt : t.val * 5000 + p.val < 100000 := by have := t.isLt; have := p.isLt; omega
  show k0_pay1 (F := Ideal) (((cfg0.win 0).blk t).view.read (Elt Ideal) X) (((cfg0.win 1).blk t).view.read (Elt Ideal) A)
      (((cfg0.win 2).blk t).view.read (Elt Ideal) W) (((cfg0.win 3).blk t).view.read (Elt Ideal) B) (ix2 p q)
    = Cert.Gin.layer X A W B (((cfg0.win 4).blk t).view.emb (ix2 p q))
  rw [outblock_emb t p q ⟨t.val * 5000 + p.val, hlt⟩ rfl, Cert.Gin.layer_apply]
  refine (Body.payload_apply _ _ _ _ p q).trans ?_
  exact congr (congr (congr (congrArg Cert.Gin.entry (funext fun k => xblock_apply X t p k ⟨t.val * 5000 + p.val, hlt⟩ rfl))
    (funext fun k => aggblock_apply A t p k ⟨t.val * 5000 + p.val, hlt⟩ rfl)) (funext fun k => wblock_apply W t k q)) (bblock_apply B t q)

/-- Point `t` writes back block `t` of the layer of the arrays as the call finds them. -/
theorem flushed_eq (c : Dev nD) (t : Fin cfg0.N) :
    (dats m 0 c).flushed 4 t = ((cfg0.win 4).blk t).view.read (Elt Ideal)
      (Cert.Gin.layer (V m c main_arg0) (V m c main_v9) (V m c main_arg3) (V m c main_arg4)) :=
  (flushed4 m c t).trans (block_eq (V m c main_arg0) (V m c main_v9) (V m c main_arg3) (V m c main_arg4) t)

/-- An index of the output array is in point `t`'s block iff each coordinate is in the block's range on its axis. -/
theorem mem_outblock (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v10).slice (win0_4.rect t)).set ↔ _
  rw [View.set_slice_whole, Rect.mem_set_unit]
  exact Iff.rfl

/-- The 20 row blocks cover the output: row `r` is in block `r / 5000`. -/
theorem cover (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  have hlt : (i 0).val / 5000 < cfg0.N := by rw [hN]; omega
  refine ⟨⟨(i 0).val / 5000, hlt⟩, flush0_4 _, ?_⟩
  rw [mem_outblock]
  obtain ⟨-, -, -, -, -, -, -, e0, e1⟩ := index_maps ⟨(i 0).val / 5000, hlt⟩
  intro a
  match a with
  | ⟨0, _⟩ =>
    show win0_4.index ⟨(i 0).val / 5000, hlt⟩ (0 : Fin 2) * 5000 ≤ (i 0).val ∧ (i 0).val < win0_4.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_4.index ⟨(i 0).val / 5000, hlt⟩ (1 : Fin 2) * 128 ≤ (i 1).val ∧ (i 1).val < win0_4.index ⟨(i 0).val / 5000, hlt⟩ (1 : Fin 2) * 128 + 128
    rw [e1]; omega

/-- The output array after the run is the layer of the arrays as the call finds them. -/
theorem final (c : Dev nD) :
    (dats m 0 c).arrAt 4 cfg0.N = Cert.Gin.layer (V m c main_arg0) (V m c main_v9) (V m c main_arg3) (V m c main_arg4) :=
  (dats m 0 c).arrAt_eq_of_cover 4 _ (fun t _ => flushed_eq m c t) cover

/-! ## The neighbour sums the host operations compute before the call -/

/-- The neighbour sums: negative source indices wrapped by 100000, the rows of `x` gathered at them, and the gathered
    rows scatter-added by destination into a zero array. Left as the host operations' own term. -/
abbrev neighbourSums {F : FTy → Type} [FloatOps F] (x0 : Vec F S100000x64 .f32) (x1 x2 : IVec S1250000 32) : Vec F S100000x64 .f32 :=
  Host.scatterAdd scatter_S100000x64_S1250000x1_S1250000x64_1_0_0_1
    (broadcastInDim S100000x64 ![] bcast_S_S100000x64 (constant S_ .f32 0x00000000#32))
    (broadcastInDim S1250000x1 ![0] bcast_S1250000_S1250000x1_0 x2)
    (Host.gather gather_S100000x64_S1250000x1_S1250000x64_1_0_n_n_0_1_164 x0
      (broadcastInDim S1250000x1 ![0] bcast_S1250000_S1250000x1_0
        (select (cmpi .slt x1 (broadcastInDim S1250000 ![] bcast_S_S1250000 (constantI S_ 32 0#32)))
          (addi x1 (broadcastInDim S1250000 ![] bcast_S_S1250000 (constantI S_ 32 100000#32))) x1)))

/-- The call's second operand is the neighbour sums of the arguments. -/
theorem agg_eq (c : Dev nD) :
    (V m c main_v9 : Vec Ideal S100000x64 .f32)
      = neighbourSums (F := Ideal) (m ((c : Thread nD τ).loc main_arg0)) (m ((c : Thread nD τ).loc main_arg1)) (m ((c : Thread nD τ).loc main_arg2)) := by
  dsimp only [V, hostOps0]
  after_results

/-! ## The run, read -/

/-- Every run of the kernel program ends with the output at the layer of the arguments and of their neighbour sums,
    the arguments unchanged. -/
theorem run : θ_run defs (onTc (τ := τ) (main (F := Ideal))) ⟨m, fun _ => 0, ρ⟩ fun r => ∀ c : Dev nD,
      r.2.mem ((c : Thread nD τ).loc main_v10)
        = Cert.Gin.layer (m ((c : Thread nD τ).loc main_arg0))
            (neighbourSums (F := Ideal) (m ((c : Thread nD τ).loc main_arg0)) (m ((c : Thread nD τ).loc main_arg1)) (m ((c : Thread nD τ).loc main_arg2)))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (by
      rw [agg_eq m c, V_main_arg0 m c, V_main_arg3 m c, V_main_arg4 m c])), (h c).2⟩)
    (run_blocks m ρ)

end Cert.KernelIdeal.Blocks

end
-- ==== Proof.RefLayer.lean ====
/-
  The reference's result is `Cert.Gin.layer` of the arguments and of its own neighbour sums.

  The reference gathers `x[src]`, scatter-adds the rows by `dst` into a zero array (the neighbour sums, its stage 9),
  forms `1·x + agg`, multiplies by `W` with one contracted axis, adds the bias broadcast over the rows and takes the
  maximum with zero. Stage by stage, read at row `r` and column `j`, that is `entry` of row `r` of `x` and of the
  neighbour sums, column `j` of `W` and `b[j]`. The gather and the scatter are left unopened: the kernel program
  computes the same array before its call.
-/
import proofs.«169084_j40346922779435_1_alg».proof.Proof.Gen.ReferenceIdeal.Read
import proofs.«169084_j40346922779435_1_alg».proof.Proof.Layer
import Idealize.ShloMosaic.Lib.ValueIdx
import Idealize.ShloMosaic.PureOps.Ideal.Laws

noncomputable section

namespace Cert.ReferenceIdeal.Layer

open Cert.ReferenceIdeal Cert.ReferenceIdeal.Read Idealize.ShloMosaic Idealize.ShloMosaic.ValueIdx

/-- The product's left operand is read at the output's row and the contracted position, -/
theorem lidx_eq (r : Fin 100000) (j : Fin 128) (k : Fin 64) : lidx_main_v13 (ix2 r j) k = ix2 r k :=
  funext fun a => by match a with | ⟨0, _⟩ => rfl | ⟨1, _⟩ => rfl
/-- its right operand at the contracted position and the output's column, -/
theorem ridx_eq (r : Fin 100000) (j : Fin 128) (k : Fin 64) : ridx_main_v13 (ix2 r j) k = ix2 k j :=
  funext fun a => by match a with | ⟨0, _⟩ => rfl | ⟨1, _⟩ => rfl
/-- and the bias at the output's column. -/
theorem bidx_eq (r : Fin 100000) (j : Fin 128) : idx_main_v14 (idx_main_v15 (ix2 r j)) = ix1 j :=
  funext fun a => by match a with | ⟨0, _⟩ => rfl

/-- The reference's last stage is the layer of `x`, its neighbour sums, `W` and `b`. -/
theorem result_eq (x0 : (⟨S100000x64, .f32⟩ : BufTy).Contents (Elt Ideal)) (x1 x2 : (⟨S1250000, .i32⟩ : BufTy).Contents (Elt Ideal))
    (x3 : (⟨S64x128, .f32⟩ : BufTy).Contents (Elt Ideal)) (x4 : (⟨S128, .f32⟩ : BufTy).Contents (Elt Ideal)) :
    val_main_v17 (F := Ideal) x0 x1 x2 x3 x4 = Cert.Gin.layer x0 (val_main_v9 (F := Ideal) x0 x1 x2) x3 x4 := by
  funext i
  obtain ⟨r, j, rfl⟩ : ∃ (r : Fin 100000) (j : Fin 128), i = ix2 r j := ⟨i 0, i 1, eq_ix2 i⟩
  rw [Cert.Gin.layer_apply, val_main_v17_apply, val_main_v16_apply, val_main_v13_apply, val_main_v15_apply, val_main_v14_apply,
    val_main_call0_v0_apply, val_main_call0_cst_apply, bidx_eq]
  simp only [lidx_eq, ridx_eq, val_main_v12_apply, val_main_v11_apply, val_main_v10_apply, val_main_cst_1_apply]
  rfl

end Cert.ReferenceIdeal.Layer

end
-- ==== Proof.lean ====
/-
  A graph-isomorphism layer — neighbour sums, `(1 + eps)·x + agg` with `eps = 0`, a linear map and a rectifier — computed
  by a row-tiled kernel after host-side gather and scatter-add, against the same layer written in plain array code.

  Both programs compute the neighbour sums with the same host operations (a gather of `x` at the wrapped source indices,
  a scatter-add by destination into zeros). The kernel then takes 20 blocks of 5000 rows; for each it forms
  `1·x + agg`, multiplies by `W` on the matrix unit from a zero accumulator (bf16 operands, which on the extended reals
  are the values themselves), adds the bias and takes the maximum with zero. The reference forms `1·x + agg` for all
  rows, contracts with `W`, adds the bias and applies the rectifier. On the extended reals both are, at node `r` and
  feature `j`,

      max ( (Σ_k (1 · x[r,k] + agg[r,k]) · W[k,j]) + b[j] , 0 )        (`Cert.Gin.layer`),

  the same sum in the same order of operations, so no algebraic law and no finiteness of the inputs is needed: the
  kernel side is the value of a block at an index (Proof/Body.lean) carried from blocks to the array
  (Proof/Blocks.lean), the reference side its stages read at an index (Proof/RefLayer.lean).
  The three frames are the generated ones (the reference's is its generated run with the result dropped), and the
  idealization rewrote nothing, so `preserves` is trivial.
-/
import proofs.«169084_j40346922779435_1_alg».proof.Defs
import proofs.«169084_j40346922779435_1_alg».proof.Proof.Gen.Kernel
import proofs.«169084_j40346922779435_1_alg».proof.Proof.Gen.Kernel.Skeleton
import proofs.«169084_j40346922779435_1_alg».proof.Proof.Gen.Kernel.Launch
import proofs.«169084_j40346922779435_1_alg».proof.Proof.Gen.Kernel.Points
import proofs.«169084_j40346922779435_1_alg».proof.Proof.Gen.Kernel.Frame
import proofs.«169084_j40346922779435_1_alg».proof.Proof.Gen.KernelIdeal
import proofs.«169084_j40346922779435_1_alg».proof.Proof.Gen.KernelIdeal.Skeleton
import proofs.«169084_j40346922779435_1_alg».proof.Proof.Gen.KernelIdeal.Launch
import proofs.«169084_j40346922779435_1_alg».proof.Proof.Gen.KernelIdeal.Points
import proofs.«169084_j40346922779435_1_alg».proof.Proof.Gen.KernelIdeal.Frame
import proofs.«169084_j40346922779435_1_alg».proof.Proof.Gen.ReferenceIdeal
import proofs.«169084_j40346922779435_1_alg».proof.Proof.Gen.KernelIdeal.Value
import proofs.«169084_j40346922779435_1_alg».proof.Proof.Gen.ReferenceIdeal.Run
import proofs.«169084_j40346922779435_1_alg».proof.Proof.Gen.ReferenceIdeal.Read
import proofs.«169084_j40346922779435_1_alg».proof.Proof.Gen.Pre_finite_inputs
import proofs.«169084_j40346922779435_1_alg».proof.Proof.Layer
import proofs.«169084_j40346922779435_1_alg».proof.Proof.Body
import proofs.«169084_j40346922779435_1_alg».proof.Proof.Blocks
import proofs.«169084_j40346922779435_1_alg».proof.Proof.RefLayer
import Idealize.ShloMosaic.Adequacy
import Idealize.ShloMosaic.Init

noncomputable section

namespace Cert.Proof

open Idealize.ShloMosaic Idealize.ShloMosaic.TcCoe Idealize.SL.Sem

/-- The neighbour sums as the reference's stages spell them are the neighbour sums as the kernel program's host
    operations spell them: the same operations over the same dimension records. -/
theorem neighbourSums_eq (x0 : Vec Ideal Cert.KernelIdeal.S100000x64 .f32) (x1 x2 : IVec Cert.KernelIdeal.S1250000 32) :
    Cert.ReferenceIdeal.Read.val_main_v9 (F := Ideal) x0 x1 x2 = Cert.KernelIdeal.Blocks.neighbourSums (F := Ideal) x0 x1 x2 := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the kernel program's output array ends at the layer of the arguments and their neighbour
    sums (block by block, then the cover), and the reference's result is the same function of arguments that agree. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  refine (Cert.ReferenceIdeal.Read.val_main_v17_eq (F := Ideal) _ _ _ _ _).trans ?_
  refine (Cert.ReferenceIdeal.Layer.result_eq _ _ _ _ _).trans ?_
  rw [neighbourSums_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
